-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x16 : Shape := ⟨3, ![8, 4096, 16]⟩
abbrev S8x4096x3 : Shape := ⟨3, ![8, 4096, 3]⟩
abbrev S8x4096x64 : Shape := ⟨3, ![8, 4096, 64]⟩
abbrev S64x1088 : Shape := ⟨2, ![64, 1088]⟩
abbrev S64 : Shape := ⟨1, ![64]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S64x1088 : S_.BroadcastsInDim S64x1088 (![] : Fin 0 → Fin S64x1088.rank)
  reducesTo_S64x1088_S_d0_1 : S64x1088.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S8x4096x16 32) (main_arg1 : FVec F S8x4096x3 .f32) (main_arg2 : FVec F S8x4096x64 .f32) (main_arg3 : FVec F S64x1088 .f32) (main_arg4 : FVec F S64 .f32) : IVec S_ 1 :=
  let main_v0 : FVec F S8x4096x3 .f32 := Host.absf main_arg1
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x64 .f32 := Host.absf main_arg2
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S64x1088 .f32 := Host.absf main_arg3
  let main_cst_2 : FVec F S_ .f32 := constant S_ .f32 0x7F800000#32
  let main_v10 : FVec F S64x1088 .f32 := broadcastInDim S64x1088 ![] bcast_S_S64x1088 main_cst_2
  let main_v11 : IVec S64x1088 1 := cmpf .olt main_v9 main_v10
  let main_c_3 : IVec S_ 1 := constantI S_ 1 1#1
  let main_v12 : IVec S_ 1 := (fun x v => Host.reduce IntOp.andi x v reducesTo_S64x1088_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x4096x16 : Shape := ⟨3, ![8, 4096, 16]⟩
abbrev S8x4096x3 : Shape := ⟨3, ![8, 4096, 3]⟩
abbrev S8x4096x64 : Shape := ⟨3, ![8, 4096, 64]⟩
abbrev S64x1088 : Shape := ⟨2, ![64, 1088]⟩
abbrev S64 : Shape := ⟨1, ![64]⟩
abbrev S8 : Shape := ⟨1, ![8]⟩
abbrev S8x1x1 : Shape := ⟨3, ![8, 1, 1]⟩
abbrev S_ : Shape := ⟨0, ![]⟩
abbrev S8x4096x16x1 : Shape := ⟨4, ![8, 4096, 16, 1]⟩
abbrev S8x4096x16x2 : Shape := ⟨4, ![8, 4096, 16, 2]⟩
abbrev S8x4096x16x64 : Shape := ⟨4, ![8, 4096, 16, 64]⟩
abbrev S8x4096x1x64 : Shape := ⟨4, ![8, 4096, 1, 64]⟩
abbrev S8x4096x17x64 : Shape := ⟨4, ![8, 4096, 17, 64]⟩
abbrev S8x4096x64x17 : Shape := ⟨4, ![8, 4096, 64, 17]⟩
abbrev S8x4096x1088 : Shape := ⟨3, ![8, 4096, 1088]⟩
abbrev S1088x64 : Shape := ⟨2, ![1088, 64]⟩
abbrev S1x64 : Shape := ⟨2, ![1, 64]⟩
abbrev S1x1024x1088 : Shape := ⟨3, ![1, 1024, 1088]⟩
abbrev S1x1024x64 : Shape := ⟨3, ![1, 1024, 64]⟩
abbrev S1024x1088 : Shape := ⟨2, ![1024, 1088]⟩
abbrev S1024x64 : Shape := ⟨2, ![1024, 64]⟩

abbrev nBuf : Space → Nat
  | .hbm => 35
  | .vmem => 6
  | .smem => 0
  | _ => 0

abbrev bufTy : (tb : Table) → Fin (tcTables nBuf tb) → BufTy
  | .hbm, ⟨0, _⟩ => ⟨S8x4096x16, .i32⟩
  | .hbm, ⟨1, _⟩ => ⟨S8x4096x3, .f32⟩
  | .hbm, ⟨2, _⟩ => ⟨S8x4096x64, .f32⟩
  | .hbm, ⟨3, _⟩ => ⟨S64x1088, .f32⟩
  | .hbm, ⟨4, _⟩ => ⟨S64, .f32⟩
  | .hbm, ⟨5, _⟩ => ⟨S8x4096x64, .bf16⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .i32⟩
  | .hbm, ⟨12, _⟩ => ⟨S8x1x1, .i32⟩
  | .hbm, ⟨13, _⟩ => ⟨S8x1x1, .i32⟩
  | .hbm, ⟨14, _⟩ => ⟨S8x1x1, .i32⟩
  | .hbm, ⟨15, _⟩ => ⟨S_, .i32⟩
  | .hbm, ⟨16, _⟩ => ⟨S8x4096x16, .i32⟩
  | .hbm, ⟨17, _⟩ => ⟨S8x4096x16, .i1⟩
  | .hbm, ⟨18, _⟩ => ⟨S_, .i32⟩
  | .hbm, ⟨19, _⟩ => ⟨S8x4096x16, .i32⟩
  | .hbm, ⟨20, _⟩ => ⟨S8x4096x16, .i32⟩
  | .hbm, ⟨21, _⟩ => ⟨S8x4096x16, .i32⟩
  | .hbm, ⟨22, _⟩ => ⟨S8x4096x16, .i32⟩
  | .hbm, ⟨23, _⟩ => ⟨S8x4096x16x1, .i32⟩
  | .hbm, ⟨24, _⟩ => ⟨S8x4096x16x1, .i32⟩
  | .hbm, ⟨25, _⟩ => ⟨S8x4096x16x2, .i32⟩
  | .hbm, ⟨26, _⟩ => ⟨S8x4096x16x64, .bf16⟩
  | .hbm, ⟨27, _⟩ => ⟨S8x4096x1x64, .bf16⟩
  | .hbm, ⟨28, _⟩ => ⟨S8x4096x17x64, .bf16⟩
  | .hbm, ⟨29, _⟩ => ⟨S8x4096x64x17, .bf16⟩
  | .hbm, ⟨30, _⟩ => ⟨S8x4096x1088, .bf16⟩
  | .hbm, ⟨31, _⟩ => ⟨S1088x64, .f32⟩
  | .hbm, ⟨32, _⟩ => ⟨S1088x64, .bf16⟩
  | .hbm, ⟨33, _⟩ => ⟨S1x64, .f32⟩
  | .hbm, ⟨34, _⟩ => ⟨S8x4096x64, .f32⟩
  | .local _ .vmem, ⟨0, _⟩ => ⟨S1x1024x1088, .bf16⟩
  | .local _ .vmem, ⟨1, _⟩ => ⟨S1x1024x1088, .bf16⟩
  | .local _ .vmem, ⟨2, _⟩ => ⟨S1088x64, .bf16⟩
  | .local _ .vmem, ⟨3, _⟩ => ⟨S1x64, .f32⟩
  | .local _ .vmem, ⟨4, _⟩ => ⟨S1x1024x64, .f32⟩
  | .local _ .vmem, ⟨5, _⟩ => ⟨S1x1024x64, .f32⟩
  | _, _ => ⟨S8x4096x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1088x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S8x4096x16 : S_.BroadcastsInDim S8x4096x16 (![] : Fin 0 → Fin S8x4096x16.rank)
  bcast_S8x1x1_S8x4096x16_0_1_2 : S8x1x1.BroadcastsInDim S8x4096x16 (![0, 1, 2] : Fin 3 → Fin S8x4096x16.rank)
  bcast_S8x4096x16_S8x4096x16x1_0_1_2 : S8x4096x16.BroadcastsInDim S8x4096x16x1 (![0, 1, 2] : Fin 3 → Fin S8x4096x16x1.rank)
  concatenates_S8x4096x16x1_S8x4096x16x1_S8x4096x16x2_d3 : Shape.Concatenates [S8x4096x16x1, S8x4096x16x1] S8x4096x16x2 3
  bcast_S8x4096x64_S8x4096x1x64_0_1_3 : S8x4096x64.BroadcastsInDim S8x4096x1x64 (![0, 1, 3] : Fin 3 → Fin S8x4096x1x64.rank)
  concatenates_S8x4096x1x64_S8x4096x16x64_S8x4096x17x64_d2 : Shape.Concatenates [S8x4096x1x64, S8x4096x16x64] S8x4096x17x64 2
  transposes_S8x4096x17x64_S8x4096x64x17_0_1_3_2 : S8x4096x17x64.Transposes [0, 1, 3, 2] S8x4096x64x17
  shapeCasts_S8x4096x64x17_S8x4096x1088 : S8x4096x64x17.ShapeCasts S8x4096x1088
  transposes_S64x1088_S1088x64_1_0 : S64x1088.Transposes [1, 0] S1088x64
  shapeCasts_S64_S1x64 : S64.ShapeCasts S1x64
  inb_S1x1024x1088_S1x1024x1088_0_0_0 : ∀ a, (![0, 0, 0] : Fin 3 → Nat) a + S1x1024x1088.size a ≤ S1x1024x1088.size a
  h_S1x1024x1088 : 0 < S1x1024x1088.numel
  shapeCasts_S1x1024x1088_S1024x1088 : S1x1024x1088.ShapeCasts S1024x1088
  inb_S1088x64_S1088x64_0_0 : ∀ a, (![0, 0] : Fin 2 → Nat) a + S1088x64.size a ≤ S1088x64.size a
  h_S1088x64 : 0 < S1088x64.numel
  shapeCasts_S1088x64_S1088x64 : S1088x64.ShapeCasts S1088x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  gather_S8x4096x64_S8x4096x16x2_S8x4096x16x64_3_01_n_n_01_3_1164_wf : GatherDims.WF S8x4096x64 S8x4096x16x2 S8x4096x16x64 [3] [0, 1] [] [0, 1] [] 3 ![1, 1, 64]
  dot_S1024x1088_S1088x64_S1024x64_1_0_0_1_n_n_wf : DotDims.WF S1024x1088 S1088x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1088.size a ≤ S8x4096x1088.size a
  hwx0_0 : ∀ i : grid0.Coords, EltTy.bits .bf16 = 32 ∨ (Rect.block (s := S8x4096x1088) S1x1024x1088.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1088x64.size a ≤ S1088x64.size a
  hwx0_1 : ∀ i : grid0.Coords, EltTy.bits .bf16 = 32 ∨ (Rect.block (s := S1088x64) S1088x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x4096x64.size a
  hwx0_3 : ∀ i : grid0.Coords, EltTy.bits .f32 = 32 ∨ (Rect.block (s := S8x4096x64) S1x1024x64.size (cc0_transform_3 i) (hinb0_3 i)).WholeWords (EltTy.packing .f32)

variable [Facts₀]

def gather_S8x4096x64_S8x4096x16x2_S8x4096x16x64_3_01_n_n_01_3_1164 : GatherDims S8x4096x64 S8x4096x16x2 S8x4096x16x64 where
  offsetDims := [3]
  collapsedSliceDims := [0, 1]
  operandBatchingDims := []
  startIndicesBatchingDims := []
  startIndexMap := [0, 1]
  indexVectorDim := 3
  sliceSizes := ![1, 1, 64]
  wf := gather_S8x4096x64_S8x4096x16x2_S8x4096x16x64_3_01_n_n_01_3_1164_wf
def dot_S1024x1088_S1088x64_S1024x64_1_0_0_1_n_n : DotDims S1024x1088 S1088x64 S1024x64 where
  lhsContracting := [1]
  rhsContracting := [0]
  lhsNonContracting := [0]
  rhsNonContracting := [1]
  lhsBatch := []
  rhsBatch := []
  wf := dot_S1024x1088_S1088x64_S1024x64_1_0_0_1_n_n_wf

abbrev win0_0 : Pipeline.Window sig grid0 :=
  Pipeline.Window.ofSpec (Memref.whole main_v21) S1x1024x1088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1088x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x16 : Shape := ⟨3, ![8, 4096, 16]⟩
abbrev S8x4096x3 : Shape := ⟨3, ![8, 4096, 3]⟩
abbrev S8x4096x64 : Shape := ⟨3, ![8, 4096, 64]⟩
abbrev S64x1088 : Shape := ⟨2, ![64, 1088]⟩
abbrev S64 : Shape := ⟨1, ![64]⟩
abbrev S_ : Shape := ⟨0, ![]⟩
abbrev S8x4096x16x1 : Shape := ⟨4, ![8, 4096, 16, 1]⟩
abbrev S8x4096x16x64 : Shape := ⟨4, ![8, 4096, 16, 64]⟩
abbrev S8x4096x1x64 : Shape := ⟨4, ![8, 4096, 1, 64]⟩
abbrev S8x4096x17x64 : Shape := ⟨4, ![8, 4096, 17, 64]⟩
abbrev S8x4096x64x17 : Shape := ⟨4, ![8, 4096, 64, 17]⟩
abbrev S8x4096x1088 : Shape := ⟨3, ![8, 4096, 1088]⟩
abbrev S1x1x64 : Shape := ⟨3, ![1, 1, 64]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x16, .i32⟩
  | .hbm, ⟨1, _⟩ => ⟨S8x4096x3, .f32⟩
  | .hbm, ⟨2, _⟩ => ⟨S8x4096x64, .f32⟩
  | .hbm, ⟨3, _⟩ => ⟨S64x1088, .f32⟩
  | .hbm, ⟨4, _⟩ => ⟨S64, .f32⟩
  | .hbm, ⟨5, _⟩ => ⟨S_, .i32⟩
  | .hbm, ⟨6, _⟩ => ⟨S8x4096x16, .i32⟩
  | .hbm, ⟨7, _⟩ => ⟨S8x4096x16, .i1⟩
  | .hbm, ⟨8, _⟩ => ⟨S_, .i32⟩
  | .hbm, ⟨9, _⟩ => ⟨S8x4096x16, .i32⟩
  | .hbm, ⟨10, _⟩ => ⟨S8x4096x16, .i32⟩
  | .hbm, ⟨11, _⟩ => ⟨S8x4096x16, .i32⟩
  | .hbm, ⟨12, _⟩ => ⟨S8x4096x16x1, .i32⟩
  | .hbm, ⟨13, _⟩ => ⟨S8x4096x16x64, .f32⟩
  | .hbm, ⟨14, _⟩ => ⟨S8x4096x1x64, .f32⟩
  | .hbm, ⟨15, _⟩ => ⟨S8x4096x17x64, .f32⟩
  | .hbm, ⟨16, _⟩ => ⟨S8x4096x64x17, .f32⟩
  | .hbm, ⟨17, _⟩ => ⟨S8x4096x1088, .f32⟩
  | .hbm, ⟨18, _⟩ => ⟨S8x4096x64, .f32⟩
  | .hbm, ⟨19, _⟩ => ⟨S1x1x64, .f32⟩
  | .hbm, ⟨20, _⟩ => ⟨S8x4096x64, .f32⟩
  | .hbm, ⟨21, _⟩ => ⟨S8x4096x64, .f32⟩
  | .hbm, ⟨22, _⟩ => ⟨S_, .f32⟩
  | .hbm, ⟨23, _⟩ => ⟨S8x4096x64, .f32⟩
  | .hbm, ⟨24, _⟩ => ⟨S8x4096x64, .f32⟩
  | _, _ => ⟨S8x4096x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x64_S8x4096x1x64_0_1_3 : S8x4096x64.BroadcastsInDim S8x4096x1x64 (![0, 1, 3] : Fin 3 → Fin S8x4096x1x64.rank)
  concatenates_S8x4096x1x64_S8x4096x16x64_S8x4096x17x64_d2 : Shape.Concatenates [S8x4096x1x64, S8x4096x16x64] S8x4096x17x64 2
  transposes_S8x4096x17x64_S8x4096x64x17_0_1_3_2 : S8x4096x17x64.Transposes [0, 1, 3, 2] S8x4096x64x17
  shapeCasts_S8x4096x64x17_S8x4096x1088 : S8x4096x64x17.ShapeCasts S8x4096x1088
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  gather_S8x4096x64_S8x4096x16x1_S8x4096x16x64_3_1_0_0_1_3_1164_wf : GatherDims.WF S8x4096x64 S8x4096x16x1 S8x4096x16x64 [3] [1] [0] [1] [0] 3 ![1, 1, 64]
  dot_S8x4096x1088_S64x1088_S8x4096x64_2_1_01_0_n_n_wf : DotDims.WF S8x4096x1088 S64x1088 S8x4096x64 [2] [1] [0, 1] [0] [] []

variable [Facts₀]

def gather_S8x4096x64_S8x4096x16x1_S8x4096x16x64_3_1_0_0_1_3_1164 : GatherDims S8x4096x64 S8x4096x16x1 S8x4096x16x64 where
  offsetDims := [3]
  collapsedSliceDims := [1]
  operandBatchingDims := [0]
  startIndicesBatchingDims := [0]
  startIndexMap := [1]
  indexVectorDim := 3
  sliceSizes := ![1, 1, 64]
  wf := gather_S8x4096x64_S8x4096x16x1_S8x4096x16x64_3_1_0_0_1_3_1164_wf
def dot_S8x4096x1088_S64x1088_S8x4096x64_2_1_01_0_n_n : DotDims S8x4096x1088 S64x1088 S8x4096x64 where
  lhsContracting := [2]
  rhsContracting := [1]
  lhsNonContracting := [0, 1]
  rhsNonContracting := [0]
  lhsBatch := []
  rhsBatch := []
  wf := dot_S8x4096x1088_S64x1088_S8x4096x64_2_1_01_0_n_n_wf

class Facts : Prop extends Facts₀ where

variable [Facts]
-- ==== Proof.GatherRows.lean ====
/-
  Two ways of gathering rows of a table `x : [8, 4096, 64]` by an index array over `[8, 4096, 16]`, read at an entry.

  The BATCHED form carries one index component: result entry (b, v, n, ch) is `x` at batch `b` (the batching axis pairs the
  result's first coordinate with the table's), at the row named by the start index `idx[b, v, n, 0]` read as a signed
  integer and clamped into `[0, 4095]`, at channel `ch`.

  The PAIRED form carries two components and no batching axis: result entry (b, v, n, ch) is `x` at the batch named by
  `idx[b, v, n, 0]` clamped into `[0, 7]`, at the row named by `idx[b, v, n, 1]` clamped into `[0, 4095]`, at channel `ch`.

  So when the first component of the paired index always clamps to the result's own batch coordinate, and its second
  component is the batched form's index, the two gathers are one array — for every integer index, in range or not.
-/
import Idealize.ShloMosaic.Lib.ValueIdx

noncomputable section

namespace Cert.GatherRows

open Idealize.ShloMosaic Idealize.ShloMosaic.ValueIdx

abbrev Tab : Shape := ⟨3, ![8, 4096, 64]⟩
abbrev Idx1 : Shape := ⟨4, ![8, 4096, 16, 1]⟩
abbrev Idx2 : Shape := ⟨4, ![8, 4096, 16, 2]⟩
abbrev Out : Shape := ⟨4, ![8, 4096, 16, 64]⟩

/-- The batched gather's dimension numbers: the table's axis 0 batched against the indices' axis 0, its axis 1 collapsed
    and indexed by the one component, its axis 2 kept whole as the result's last axis. -/
abbrev batchedDims (wf : GatherDims.WF Tab Idx1 Out [3] [1] [0] [1] [0] 3 ![1, 1, 64]) : GatherDims Tab Idx1 Out where
  offsetDims := [3]
  collapsedSliceDims := [1]
  operandBatchingDims := [0]
  startIndicesBatchingDims := [0]
  startIndexMap := [1]
  indexVectorDim := 3
  sliceSizes := ![1, 1, 64]
  wf := wf

/-- The paired gather's dimension numbers: the table's axes 0 and 1 collapsed and indexed by the two components, its
    axis 2 kept whole as the result's last axis. -/
abbrev pairDims (wf : GatherDims.WF Tab Idx2 Out [3] [0, 1] [] [0, 1] [] 3 ![1, 1, 64]) : GatherDims Tab Idx2 Out where
  offsetDims := [3]
  collapsedSliceDims := [0, 1]
  operandBatchingDims := []
  startIndicesBatchingDims := []
  startIndexMap := [0, 1]
  indexVectorDim := 3
  sliceSizes := ![1, 1, 64]
  wf := wf

variable {α : Type}

/-- The batched gather at (b, v, n, ch): batch `b`, the clamped row, channel `ch`. -/
theorem batched_apply (wf : GatherDims.WF Tab Idx1 Out [3] [1] [0] [1] [0] 3 ![1, 1, 64])
    (x : Tab.Idx → α) (idx : IVec Idx1 32) (b : Fin 8) (v : Fin 4096) (n : Fin 16) (ch : Fin 64) :
    Host.gather (batchedDims wf) x idx (ix4 b v n ch)
      = x (ix3 b ⟨min (idx (ix4 b v n (0 : Fin 1))).toInt.toNat 4095, by omega⟩ ch) := by
  unfold Host.gather
  congr 1
  funext a
  refine Fin.ext ?_
  match a with
  | ⟨0, _⟩ =>
    show (batchedDims wf).start (ix4 b v n ch) idx 0 + (batchedDims wf).batchCoord (ix4 b v n ch) 0 + (batchedDims wf).offCoord (ix4 b v n ch) 0 = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (batchedDims wf).operandBatchingDims from List.mem_singleton.mpr rfl)]
    simp only [Nat.zero_add, Nat.add_zero]
    rfl
  | ⟨1, _⟩ =>
    show (batchedDims wf).start (ix4 b v n ch) idx 1 + (batchedDims wf).batchCoord (ix4 b v n ch) 1 + (batchedDims wf).offCoord (ix4 b v n ch) 1 = _
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    unfold GatherDims.start
    rw [dif_pos (show (1 : Fin 3) ∈ (batchedDims wf).startIndexMap from List.mem_singleton.mpr rfl)]
    have hsi : (batchedDims wf).siIdx (ix4 b v n ch) ⟨List.idxOf (1 : Fin 3) (batchedDims wf).startIndexMap,
        List.idxOf_lt_length_iff.2 (List.mem_singleton.mpr rfl)⟩ = ix4 b v n (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show (batchedDims wf).start (ix4 b v n ch) idx 2 + (batchedDims wf).batchCoord (ix4 b v n ch) 2 + (batchedDims wf).offCoord (ix4 b v n ch) 2 = ch.val
    rw [GatherDims.batchCoord_eq_zero _ _ _ (show (2 : Fin 3) ∉ ([0] : List (Fin 3)) by decide)]
    unfold GatherDims.start
    rw [dif_neg (show (2 : Fin 3) ∉ ([1] : List (Fin 3)) by decide)]
    unfold GatherDims.offCoord
    rw [dif_pos ((GatherDims.mem_sKept _ _).mpr ⟨(show (2 : Fin 3) ∉ ([1] : List (Fin 3)) by decide), (show (2 : Fin 3) ∉ ([0] : List (Fin 3)) by decide)⟩)]
    simp only [Nat.zero_add]
    rfl

/-- The paired gather at (b, v, n, ch): the clamped batch, the clamped row, channel `ch`. -/
theorem pair_apply (wf : GatherDims.WF Tab Idx2 Out [3] [0, 1] [] [0, 1] [] 3 ![1, 1, 64])
    (x : Tab.Idx → α) (idx : IVec Idx2 32) (b : Fin 8) (v : Fin 4096) (n : Fin 16) (ch : Fin 64) :
    Host.gather (pairDims wf) x idx (ix4 b v n ch)
      = x (ix3 ⟨min (idx (ix4 b v n (0 : Fin 2))).toInt.toNat 7, by omega⟩
          ⟨min (idx (ix4 b v n (1 : Fin 2))).toInt.toNat 4095, by omega⟩ ch) := by
  unfold Host.gather
  congr 1
  funext a
  refine Fin.ext ?_
  match a with
  | ⟨0, _⟩ =>
    show (pairDims wf).start (ix4 b v n ch) idx 0 + (pairDims wf).batchCoord (ix4 b v n ch) 0 + (pairDims wf).offCoord (ix4 b v n ch) 0 = _
    rw [GatherDims.batchCoord_eq_zero _ _ _ List.not_mem_nil,
      GatherDims.offCoord_eq_zero _ _ _ (fun h => ((GatherDims.mem_sKept _ _).mp h).1 (show (0 : Fin 3) ∈ ([0, 1] : List (Fin 3)) by decide))]
    unfold GatherDims.start
    rw [dif_pos (show (0 : Fin 3) ∈ (pairDims wf).startIndexMap from (show (0 : Fin 3) ∈ ([0, 1] : List (Fin 3)) by decide))]
    have hsi : (pairDims wf).siIdx (ix4 b v n ch) ⟨List.idxOf (0 : Fin 3) (pairDims wf).startIndexMap,
        List.idxOf_lt_length_iff.2 (show (0 : Fin 3) ∈ ([0, 1] : List (Fin 3)) by decide)⟩ = ix4 b v n (0 : Fin 2) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show (pairDims wf).start (ix4 b v n ch) idx 1 + (pairDims wf).batchCoord (ix4 b v n ch) 1 + (pairDims wf).offCoord (ix4 b v n ch) 1 = _
    rw [GatherDims.batchCoord_eq_zero _ _ _ List.not_mem_nil,
      GatherDims.offCoord_eq_zero _ _ _ (fun h => ((GatherDims.mem_sKept _ _).mp h).1 (show (1 : Fin 3) ∈ ([0, 1] : List (Fin 3)) by decide))]
    unfold GatherDims.start
    rw [dif_pos (show (1 : Fin 3) ∈ (pairDims wf).startIndexMap from (show (1 : Fin 3) ∈ ([0, 1] : List (Fin 3)) by decide))]
    have hsi : (pairDims wf).siIdx (ix4 b v n ch) ⟨List.idxOf (1 : Fin 3) (pairDims wf).startIndexMap,
        List.idxOf_lt_length_iff.2 (show (1 : Fin 3) ∈ ([0, 1] : List (Fin 3)) by decide)⟩ = ix4 b v n (1 : Fin 2) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show (pairDims wf).start (ix4 b v n ch) idx 2 + (pairDims wf).batchCoord (ix4 b v n ch) 2 + (pairDims wf).offCoord (ix4 b v n ch) 2 = ch.val
    rw [GatherDims.batchCoord_eq_zero _ _ _ List.not_mem_nil]
    unfold GatherDims.start
    rw [dif_neg (show (2 : Fin 3) ∉ ([0, 1] : List (Fin 3)) by decide)]
    unfold GatherDims.offCoord
    rw [dif_pos ((GatherDims.mem_sKept _ _).mpr ⟨(show (2 : Fin 3) ∉ ([0, 1] : List (Fin 3)) by decide), List.not_mem_nil⟩)]
    simp only [Nat.zero_add]
    rfl

/-- The two gathers are one array when the paired index's first component clamps to the entry's own batch and its second
    component is the batched index. -/
theorem pair_eq_batched (wf2 : GatherDims.WF Tab Idx2 Out [3] [0, 1] [] [0, 1] [] 3 ![1, 1, 64])
    (wf1 : GatherDims.WF Tab Idx1 Out [3] [1] [0] [1] [0] 3 ![1, 1, 64])
    (x : Tab.Idx → α) (idx2 : IVec Idx2 32) (idx1 : IVec Idx1 32)
    (hbatch : ∀ (b : Fin 8) (v : Fin 4096) (n : Fin 16), min (idx2 (ix4 b v n (0 : Fin 2))).toInt.toNat 7 = b.val)
    (hrow : ∀ (b : Fin 8) (v : Fin 4096) (n : Fin 16), idx2 (ix4 b v n (1 : Fin 2)) = idx1 (ix4 b v n (0 : Fin 1))) :
    Host.gather (pairDims wf2) x idx2 = Host.gather (batchedDims wf1) x idx1 := by
  funext j
  obtain ⟨b, v, n, ch, rfl⟩ : ∃ (b : Fin 8) (v : Fin 4096) (n : Fin 16) (ch : Fin 64), j = ix4 b v n ch :=
    ⟨j 0, j 1, j 2, j 3, eq_ix4 j⟩
  rw [pair_apply, batched_apply]
  refine congrArg x ?_
  funext a
  refine Fin.ext ?_
  match a with
  | ⟨0, _⟩ => exact hbatch b v n
  | ⟨1, _⟩ =>
    show min (idx2 (ix4 b v n (1 : Fin 2))).toInt.toNat 4095 = min (idx1 (ix4 b v n (0 : Fin 1))).toInt.toNat 4095
    rw [hrow]
  | ⟨2, _⟩ => rfl

/-- A batch number below 8, written as a 32-bit word and passed through the wrap "add 8 if negative", is a nonnegative
    word that clamps into `[0, 7]` to itself. -/
theorem batch_word_clamp : ∀ b : Fin 8,
    min (Scalar.select (IntOp.cmpi .slt (BitVec.ofNat 32 b.val) 0#32) (IntOp.addi (BitVec.ofNat 32 b.val) 8#32)
      (BitVec.ofNat 32 b.val)).toInt.toNat 7 = b.val := by
  decide

end Cert.GatherRows

end
-- ==== Proof.HostSide.lean ====
/-
  The arrays the kernel's one region is launched on, as functions of @main's arguments, over the extended reals.

  * Window 0 is staged from the flattened features: the self feature and the sixteen gathered neighbour features of every
    vertex, concatenated, transposed and reshaped to `[8, 4096, 1088]`. The kernel gathers with a PAIRED index — (batch
    number, neighbour row) — whose batch component is the batch's own number 0 … 7 (an iota, passed through the same
    "add the extent if negative" wrap as the rows), so clamping it into `[0, 7]` gives the batch back; the reference
    gathers with a BATCHED index of the row alone. Rounding the features to bf16 first is the identity on extended reals.
    Hence this array IS the reference's flattened-feature stage, for every integer index array whatever its range.
  * Window 1 is staged from the weights transposed (rounding to bf16 again the identity): entry (k, o) is `W[o, k]`.
  * Window 2 is staged from the bias as a row: entry (0, o) is `bias[o]`.
-/
import proofs.«403203_j14276471292174_3_alg».proof.Proof.Gen.KernelIdeal.Frame
import proofs.«403203_j14276471292174_3_alg».proof.Proof.Gen.ReferenceIdeal.Read
import proofs.«403203_j14276471292174_3_alg».proof.Proof.GatherRows
import Idealize.ShloMosaic.Lib.Pipeline.Value
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo Idealize.ShloMosaic.ValueIdx

/-! ## The paired index array -/

/-- The batch numbers 0 … 7 as 32-bit words, each passed through "add 8 if negative". -/
def batchWords : IVec S8x1x1 32 :=
  select
    (cmpi CmpIPredicate.slt (broadcastInDim S8x1x1 ![0] bcast_S8_S8x1x1_0 (iotaInDim S8 32 0))
      (broadcastInDim S8x1x1 ![] bcast_S_S8x1x1 (constantI S_ 32 0#32)))
    (addi (broadcastInDim S8x1x1 ![0] bcast_S8_S8x1x1_0 (iotaInDim S8 32 0))
      (broadcastInDim S8x1x1 ![] bcast_S_S8x1x1 (constantI S_ 32 8#32)))
    (broadcastInDim S8x1x1 ![0] bcast_S8_S8x1x1_0 (iotaInDim S8 32 0))

/-- The neighbour rows, each passed through "add 4096 if negative". -/
def rowWords (a0 : IVec S8x4096x16 32) : IVec S8x4096x16 32 :=
  select
    (cmpi CmpIPredicate.slt a0 (broadcastInDim S8x4096x16 ![] bcast_S_S8x4096x16 (constantI S_ 32 0#32)))
    (addi a0 (broadcastInDim S8x4096x16 ![] bcast_S_S8x4096x16 (constantI S_ 32 4096#32)))
    a0

/-- The kernel's index array: per (b, v, n) the pair (batch word of `b`, row word of `a0[b, v, n]`). -/
def pairIdx (a0 : IVec S8x4096x16 32) : IVec S8x4096x16x2 32 :=
  concatenate S8x4096x16x2 3
    [⟨S8x4096x16x1, broadcastInDim S8x4096x16x1 ![0, 1, 2] bcast_S8x4096x16_S8x4096x16x1_0_1_2
        (broadcastInDim S8x4096x16 ![0, 1, 2] bcast_S8x1x1_S8x4096x16_0_1_2 batchWords)⟩,
      ⟨S8x4096x16x1, broadcastInDim S8x4096x16x1 ![0, 1, 2] bcast_S8x4096x16_S8x4096x16x1_0_1_2 (rowWords a0)⟩]
    concatenates_S8x4096x16x1_S8x4096x16x1_S8x4096x16x2_d3

/-- Its first component at (b, v, n) is the batch word of `b`. -/
theorem pairIdx_batch (a0 : IVec S8x4096x16 32) (b : Fin 8) (v : Fin 4096) (n : Fin 16) :
    pairIdx a0 (ix4 b v n (0 : Fin 2))
      = Scalar.select (IntOp.cmpi .slt (BitVec.ofNat 32 b.val) 0#32) (IntOp.addi (BitVec.ofNat 32 b.val) 8#32)
          (BitVec.ofNat 32 b.val) := by
  unfold pairIdx
  rw [concatenate_pair_apply_left (t := S8x4096x16x2) (s₁ := S8x4096x16x1) (s₂ := S8x4096x16x1) (3 : Fin 4) _ _
    concatenates_S8x4096x16x1_S8x4096x16x1_S8x4096x16x2_d3
    (ix4 b v n (0 : Fin 2)) rfl (ix4 b v n (0 : Fin 1)) (fun e => by
      match e with
      | ⟨0, _⟩ => rfl
      | ⟨1, _⟩ => rfl
      | ⟨2, _⟩ => rfl
      | ⟨3, _⟩ => rfl)]
  rfl

/-- Its second component at (b, v, n) is the row word of `a0[b, v, n]`, read as the one-component index array is. -/
theorem pairIdx_row (a0 : IVec S8x4096x16 32) (b : Fin 8) (v : Fin 4096) (n : Fin 16) :
    pairIdx a0 (ix4 b v n (1 : Fin 2))
      = broadcastInDim S8x4096x16x1 ![0, 1, 2] bcast_S8x4096x16_S8x4096x16x1_0_1_2 (rowWords a0) (ix4 b v n (0 : Fin 1)) := by
  unfold pairIdx
  rw [concatenate_pair_apply_right (t := S8x4096x16x2) (s₁ := S8x4096x16x1) (s₂ := S8x4096x16x1) (3 : Fin 4) _ _
    concatenates_S8x4096x16x1_S8x4096x16x1_S8x4096x16x2_d3
    (ix4 b v n (1 : Fin 2)) rfl rfl (ix4 b v n (0 : Fin 1)) (fun e he => by
      match e, he with
      | ⟨0, _⟩, _ => rfl
      | ⟨1, _⟩, _ => rfl
      | ⟨2, _⟩, _ => rfl
      | ⟨3, _⟩, he => exact absurd rfl he) rfl]

/-! ## Window 0's array: the flattened features -/

/-- The kernel's flattened features as a function of the index array and the feature table. -/
def flatK (a0 : IVec S8x4096x16 32) (x : FVec Ideal S8x4096x64 .f32) : FVec Ideal S8x4096x1088 .bf16 :=
  shapeCast S8x4096x1088
    (transpose S8x4096x64x17 [0, 1, 3, 2]
      (concatenate S8x4096x17x64 2
        [⟨S8x4096x1x64, broadcastInDim S8x4096x1x64 ![0, 1, 3] bcast_S8x4096x64_S8x4096x1x64_0_1_3
            (truncf FTy.bf16 x bitsLt_bf16_f32)⟩,
          ⟨S8x4096x16x64, Host.gather gather_S8x4096x64_S8x4096x16x2_S8x4096x16x64_3_01_n_n_01_3_1164
            (truncf FTy.bf16 x bitsLt_bf16_f32) (pairIdx a0)⟩]
        concatenates_S8x4096x1x64_S8x4096x16x64_S8x4096x17x64_d2)
      transposes_S8x4096x17x64_S8x4096x64x17_0_1_3_2)
    shapeCasts_S8x4096x64x17_S8x4096x1088

/-- The two gathers agree: the paired index's batch component clamps to the batch, its row component is the batched index. -/
theorem gather_eq (a0 : IVec S8x4096x16 32) (x : FVec Ideal S8x4096x64 .f32) :
    Host.gather gather_S8x4096x64_S8x4096x16x2_S8x4096x16x64_3_01_n_n_01_3_1164 x (pairIdx a0)
      = Host.gather Cert.ReferenceIdeal.gather_S8x4096x64_S8x4096x16x1_S8x4096x16x64_3_1_0_0_1_3_1164 x
          (Cert.ReferenceIdeal.Read.val_main_v5 (F := Ideal) a0) :=
  Cert.GatherRows.pair_eq_batched
    Cert.KernelIdeal.Gen.gather_S8x4096x64_S8x4096x16x2_S8x4096x16x64_3_01_n_n_01_3_1164_wf
    Cert.ReferenceIdeal.Gen.gather_S8x4096x64_S8x4096x16x1_S8x4096x16x64_3_1_0_0_1_3_1164_wf
    x (pairIdx a0) (Cert.ReferenceIdeal.Read.val_main_v5 (F := Ideal) a0)
    (fun b v n => by rw [pairIdx_batch]; exact Cert.GatherRows.batch_word_clamp b)
    (fun b v n => by rw [pairIdx_row]; rfl)

/-- The kernel's flattened features are the reference's. -/
theorem flatK_eq (a0 : IVec S8x4096x16 32) (x : FVec Ideal S8x4096x64 .f32) :
    flatK a0 x = Cert.ReferenceIdeal.Read.val_main_v10 (F := Ideal) a0 x := by
  unfold flatK Cert.ReferenceIdeal.Read.val_main_v10 Cert.ReferenceIdeal.Read.val_main_v9
    Cert.ReferenceIdeal.Read.val_main_v8 Cert.ReferenceIdeal.Read.val_main_v7 Cert.ReferenceIdeal.Read.val_main_v6
  have hx : (truncf FTy.bf16 x bitsLt_bf16_f32 : FVec Ideal S8x4096x64 .bf16) = x := rfl
  rw [hx, gather_eq]

variable (m : (ℓ : Loc nD τ sig) → Buf (Elt Ideal) ℓ)

set_option maxHeartbeats 2000000 in
/-- Window 0's array as the region finds it. -/
theorem win0_array (c : Dev nD) :
    (V m c main_v21 : S8x4096x1088.Idx → EReal)
      = Cert.ReferenceIdeal.Read.val_main_v10 (F := Ideal) (m ((c : Thread nD τ).loc main_arg0)) (m ((c : Thread nD τ).loc main_arg2)) := by
  rw [← flatK_eq]
  dsimp only [Gen.V, Gen.hostOps0]
  after_results
  rfl

/-! ## Windows 1 and 2: the weights transposed, the bias as a row -/

/-- Window 1's array at (k, o) is the weight `W[o, k]`. -/
theorem win1_array_apply (c : Dev nD) (k : Fin 1088) (o : Fin 64) :
    (V m c main_v23 : S1088x64.Idx → EReal) (ix2 k o)
      = (m ((c : Thread nD τ).loc main_arg3) : S64x1088.Idx → EReal) (ix2 o k) := by
  have e : @Eq (S1088x64.Idx → EReal) (V m c main_v23)
      (truncf (F := Ideal) (s := S1088x64) (φ := .f32) FTy.bf16
        (transpose S1088x64 [1, 0] (m ((c : Thread nD τ).loc main_arg3) : FVec Ideal S64x1088 .f32)
          transposes_S64x1088_S1088x64_1_0) bitsLt_bf16_f32) := by
    dsimp only [Gen.V, Gen.hostOps0]
    after_results
  rw [e]
  show transpose S1088x64 [1, 0] (m ((c : Thread nD τ).loc main_arg3) : FVec Ideal S64x1088 .f32)
      transposes_S64x1088_S1088x64_1_0 (ix2 k o) = _
  exact transpose_apply [1, 0] _ transposes_S64x1088_S1088x64_1_0 (ix2 k o) (ix2 o k) (fun e => by
    match e with
    | ⟨0, _⟩ => rfl
    | ⟨1, _⟩ => rfl)

/-- Window 2's array at (0, o) is `bias[o]`. -/
theorem win2_array_apply (c : Dev nD) (o : Fin 64) :
    (V m c main_v24 : S1x64.Idx → EReal) (ix2 (0 : Fin 1) o)
      = (m ((c : Thread nD τ).loc main_arg4) : S64.Idx → EReal) (ix1 o) := by
  have e : @Eq (S1x64.Idx → EReal) (V m c main_v24)
      (shapeCast S1x64 (m ((c : Thread nD τ).loc main_arg4) : FVec Ideal S64 .f32) shapeCasts_S64_S1x64) := by
    dsimp only [Gen.V, Gen.hostOps0]
    after_results
    rfl
  rw [e]
  exact shapeCast_apply _ shapeCasts_S64_S1x64 (ix2 (0 : Fin 1) o) (ix1 o) (by
    rw [Shape.rowMajor_val_one, Shape.rowMajor_val_two]
    show o.val = 0 * 64 + o.val
    omega)

end Cert.KernelIdeal.HostSide

end
-- ==== Proof.ConvSpec.lean ====
/-
  The layer's result as one function of three arrays, entry by entry, over the extended reals.

  Given the flattened features `flat : [8, 4096, 1088]` (for each batch and vertex, the vertex's own feature and its
  sixteen neighbours' features laid out along the last axis), the weights `W : [64, 1088]` and the bias `[64]`, entry
  (b, v, o) of the result is

      max( Σ_{f < 1088} flat[b, v, f] · W[o, f]  +  bias[o] ,  0 ).

  Both programs end at this function of their own `flat` array; that the two `flat` arrays are one array is a separate
  matter (the gathers), and nothing here depends on what `flat` holds. No law of the extended reals beyond reading the
  same sum on both sides is used, so no entry needs to be finite.
-/
import Idealize.ShloMosaic.PureOps.Ideal
import Idealize.ShloMosaic.Lib.ValueIdx

noncomputable section

open scoped BigOperators

namespace Cert.ConvSpec

open Idealize.ShloMosaic Idealize.ShloMosaic.ValueIdx

/-- Entry (b, v, o): the contraction over the 1088 flattened features, the bias added, the negative part cut off. -/
def convAt (flat : FVec Ideal ⟨3, ![8, 4096, 1088]⟩ .f32) (W : FVec Ideal ⟨2, ![64, 1088]⟩ .f32)
    (bias : FVec Ideal ⟨1, ![64]⟩ .f32) (b : Fin 8) (v : Fin 4096) (o : Fin 64) : Ideal .f32 :=
  FloatOps.maximumf (F := Ideal)
    (FloatOps.addf (F := Ideal) (∑ k : Fin 1088, flat (ix3 b v k) * W (ix2 o k)) (bias (ix1 o)))
    (FloatOps.ofBits .f32 0x00000000#32)

/-- The whole result array. -/
def convOut (flat : FVec Ideal ⟨3, ![8, 4096, 1088]⟩ .f32) (W : FVec Ideal ⟨2, ![64, 1088]⟩ .f32)
    (bias : FVec Ideal ⟨1, ![64]⟩ .f32) : FVec Ideal ⟨3, ![8, 4096, 64]⟩ .f32 :=
  fun i => convAt flat W bias ⟨(i 0).val, (i 0).isLt⟩ ⟨(i 1).val, (i 1).isLt⟩ ⟨(i 2).val, (i 2).isLt⟩

theorem convOut_ix3 (flat : FVec Ideal ⟨3, ![8, 4096, 1088]⟩ .f32) (W : FVec Ideal ⟨2, ![64, 1088]⟩ .f32)
    (bias : FVec Ideal ⟨1, ![64]⟩ .f32) (b : Fin 8) (v : Fin 4096) (o : Fin 64) :
    convOut flat W bias (ix3 b v o) = convAt flat W bias b v o := rfl

end Cert.ConvSpec

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KernelValue.lean ====
/-
  What the kernel's result array holds after the run: the layer function of the flattened features, weights and bias.

  The grid has 8 × 4 points; point (b, q) is handed rows `1024 q … 1024 q + 1023` of batch `b` of the flattened features
  (a `[1, 1024, 1088]` block), the whole `[1088, 64]` transposed-weight array and the whole `[1, 64]` bias row, and
  writes the `[1, 1024, 64]` block of the result at the same batch and rows. Its body is one matrix product into a zero
  accumulator plus the bias row broadcast down the rows, cut below at zero. Read at row `r`, column `o` this is

      max( Σ_{k < 1088} block[0, r, k] · Wt[k, o] + biasRow[0, o], 0 ),

  and with each block entry read off its array — features at (b, 1024 q + r, k), `Wt[k, o] = W[o, k]`,
  `biasRow[0, o] = bias[o]` — it is the specification's entry (b, 1024 q + r, o). The 32 blocks tile the result array, so
  the array ends holding the specification everywhere.
-/
import proofs.«403203_j14276471292174_3_alg».proof.Proof.Gen.KernelIdeal.Value
import proofs.«403203_j14276471292174_3_alg».proof.Proof.HostSide
import proofs.«403203_j14276471292174_3_alg».proof.Proof.ConvSpec
import proofs.«403203_j14276471292174_3_alg».proof.Proof.LibPlainDot
import Idealize.ShloMosaic.Lib.Pipeline.Value
import Idealize.ShloMosaic.PureOps.Ideal.Laws

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's result at one entry -/

/-- Row `r`, column `o` of the stored block: the contraction of row `r` of the feature block with column `o` of the
    transposed weights, plus the bias row's entry `o`, cut below at zero. -/
theorem pay_apply (v0 : Vec Ideal S1x1024x1088 .bf16) (v2 : Vec Ideal S1088x64 .bf16) (v5 : Vec Ideal S1x64 .f32)
    (r : Fin 1024) (o : Fin 64) :
    k0_pay1 (F := Ideal) v0 v2 v5 (ix3 (0 : Fin 1) r o)
      = FloatOps.maximumf (F := Ideal)
          (FloatOps.addf (F := Ideal) (∑ k : Fin 1088, v0 (ix3 (0 : Fin 1) r k) * v2 (ix2 k o)) (v5 (ix2 (0 : Fin 1) o)))
          (FloatOps.ofBits .f32 0x00000000#32) := by
  unfold k0_pay1
  refine (shapeCast_apply _ shapeCasts_S1024x64_S1x1024x64 (ix3 (0 : Fin 1) r o) (ix2 r o) (by
    rw [Shape.rowMajor_val_two, Shape.rowMajor_val_three]
    show r.val * 64 + o.val = (0 * 1024 + r.val) * 64 + o.val
    omega)).trans ?_
  show FloatOps.maximumf (F := Ideal)
      (FloatOps.addf (F := Ideal)
        (FloatOps.matmul (F := Ideal) (φ₁ := FTy.bf16) (φ₂ := FTy.bf16) dot_S1024x1088_S1088x64_S1024x64_1_0_0_1_n_n none
          (shapeCast S1024x1088 v0 shapeCasts_S1x1024x1088_S1024x1088 : FVec Ideal S1024x1088 .bf16)
          (shapeCast S1088x64 v2 shapeCasts_S1088x64_S1088x64 : FVec Ideal S1088x64 .bf16)
          (constant S1024x64 .f32 0x00000000#32) (ix2 r o))
        (broadcastTo S1024x64 (shapeCast S1x64 v5 shapeCasts_S1x64_S1x64) broadcasts_S1x64_S1024x64 (ix2 r o)))
      (FloatOps.ofBits .f32 0x00000000#32) = _
  have hm : FloatOps.matmul (F := Ideal) (φ₁ := FTy.bf16) (φ₂ := FTy.bf16) dot_S1024x1088_S1088x64_S1024x64_1_0_0_1_n_n none
      (shapeCast S1024x1088 v0 shapeCasts_S1x1024x1088_S1024x1088 : FVec Ideal S1024x1088 .bf16)
      (shapeCast S1088x64 v2 shapeCasts_S1088x64_S1088x64 : FVec Ideal S1088x64 .bf16)
      (constant S1024x64 .f32 0x00000000#32) (ix2 r o)
      = ∑ k : Fin 1088, (shapeCast S1024x1088 v0 shapeCasts_S1x1024x1088_S1024x1088 : FVec Ideal S1024x1088 .bf16) (ix2 r k)
          * (shapeCast S1088x64 v2 shapeCasts_S1088x64_S1088x64 : FVec Ideal S1088x64 .bf16) (ix2 k o) :=
    Cert.LibPlainDot.matmul_plain_apply (φ₁ := FTy.bf16) (φ₂ := FTy.bf16) 1024 1088 64 none
      (shapeCast S1024x1088 v0 shapeCasts_S1x1024x1088_S1024x1088 : FVec Ideal S1024x1088 .bf16)
      (shapeCast S1088x64 v2 shapeCasts_S1088x64_S1088x64 : FVec Ideal S1088x64 .bf16) r o
  have hA : ∀ k : Fin 1088, (shapeCast S1024x1088 v0 shapeCasts_S1x1024x1088_S1024x1088) (ix2 r k) = v0 (ix3 (0 : Fin 1) r k) :=
    fun k => shapeCast_apply v0 shapeCasts_S1x1024x1088_S1024x1088 (ix2 r k) (ix3 (0 : Fin 1) r k) (by
      rw [Shape.rowMajor_val_two, Shape.rowMajor_val_three]
      show (0 * 1024 + r.val) * 1088 + k.val = r.val * 1088 + k.val
      omega)
  have hB : shapeCast S1088x64 v2 shapeCasts_S1088x64_S1088x64 = v2 := shapeCast_self v2 _
  have hb : broadcastTo S1024x64 (shapeCast S1x64 v5 shapeCasts_S1x64_S1x64) broadcasts_S1x64_S1024x64 (ix2 r o)
      = v5 (ix2 (0 : Fin 1) o) := by
    rw [shapeCast_self]
    exact broadcastTo_apply v5 broadcasts_S1x64_S1024x64 (ix2 r o) (ix2 (0 : Fin 1) o) (fun a => by
      match a with
      | ⟨0, _⟩ => show 0 = if (1 : Nat) = 1 then 0 else _; rw [if_pos rfl]
      | ⟨1, _⟩ => show o.val = if (64 : Nat) = 1 then 0 else _; rw [if_neg (by decide)]; rfl)
  rw [hm, hb, hB]
  simp only [hA]

/-! ## The input blocks, read off their arrays -/

variable (m : (ℓ : Loc nD τ sig) → Buf (Elt Ideal) ℓ) (ρ : Dev nD → PrngReg)

/-- The grid's index maps, decided over the 32 points: the feature block moves with the result block on batch and rows
    and sits at column block 0; the weights and the bias are always block (0, 0); the result's column block is 0. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 7 ∧ win0_3.index t (1 : Fin 3) ≤ 3 :=
  (by decide +kernel : ∀ t : Fin grid0.N, _)

/-- Every (batch, row block) is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- Reading the feature block at point `t`, entry `y`, off ANY array `X` of the features' shape gives `X` at block
    index × block size + `y`, axis by axis. -/
theorem blk0_read (c : Dev nD) (t : Fin cfg0.N) (X : Buf (Elt Ideal) ((c : Thread nD τ).loc main_v21))
    (y : S1x1024x1088.Idx) (i : S8x4096x1088.Idx)
    (h0 : (i 0).val = win0_0.index t (0 : Fin 3) * 1 + (y 0).val)
    (h1 : (i 1).val = win0_0.index t (1 : Fin 3) * 1024 + (y 1).val)
    (h2 : (i 2).val = win0_0.index t (2 : Fin 3) * 1088 + (y 2).val) :
    (((cfg0.win 0).blk t).view.read (Elt Ideal) X : Vec Ideal S1x1024x1088 .bf16) y = (X : S8x4096x1088.Idx → EReal) i := by
  rw [View.read_apply]
  show (X : S8x4096x1088.Idx → EReal) _ = (X : S8x4096x1088.Idx → EReal) _
  congr 1
  funext a
  apply Fin.ext
  match a with
  | ⟨0, _⟩ => show win0_0.index t (0 : Fin 3) * 1 + 1 * (y 0).val = (i 0).val; omega
  | ⟨1, _⟩ => show win0_0.index t (1 : Fin 3) * 1024 + 1 * (y 1).val = (i 1).val; omega
  | ⟨2, _⟩ => show win0_0.index t (2 : Fin 3) * 1088 + 1 * (y 2).val = (i 2).val; omega

/-- The weight window's block at any point is the whole array it is read off. -/
theorem blk1_read (c : Dev nD) (t : Fin cfg0.N) (X : Buf (Elt Ideal) ((c : Thread nD τ).loc main_v23)) (y : S1088x64.Idx) :
    (((cfg0.win 1).blk t).view.read (Elt Ideal) X : Vec Ideal S1088x64 .bf16) y = (X : S1088x64.Idx → EReal) y := by
  obtain ⟨-, -, -, -, e0, e1, -, -, -, -⟩ := idx_facts t
  rw [View.read_apply]
  show (X : S1088x64.Idx → EReal) _ = (X : S1088x64.Idx → EReal) _
  congr 1
  funext a
  apply Fin.ext
  match a with
  | ⟨0, _⟩ => show win0_1.index t (0 : Fin 2) * 1088 + 1 * (y 0).val = (y 0).val; omega
  | ⟨1, _⟩ => show win0_1.index t (1 : Fin 2) * 64 + 1 * (y 1).val = (y 1).val; omega

/-- The bias window's block at any point is the whole row it is read off. -/
theorem blk2_read (c : Dev nD) (t : Fin cfg0.N) (X : Buf (Elt Ideal) ((c : Thread nD τ).loc main_v24)) (y : S1x64.Idx) :
    (((cfg0.win 2).blk t).view.read (Elt Ideal) X : Vec Ideal S1x64 .f32) y = (X : S1x64.Idx → EReal) y := by
  obtain ⟨-, -, -, -, -, -, e0, e1, -, -⟩ := idx_facts t
  rw [View.read_apply]
  show (X : S1x64.Idx → EReal) _ = (X : S1x64.Idx → EReal) _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The three input blocks at point `t`, read off the arrays the region finds. -/
theorem iblk0_apply (c : Dev nD) (t : Fin cfg0.N) (y : S1x1024x1088.Idx) (i : S8x4096x1088.Idx)
    (h0 : (i 0).val = win0_0.index t (0 : Fin 3) * 1 + (y 0).val)
    (h1 : (i 1).val = win0_0.index t (1 : Fin 3) * 1024 + (y 1).val)
    (h2 : (i 2).val = win0_0.index t (2 : Fin 3) * 1088 + (y 2).val) :
    (iblk m c 0 t : Vec Ideal S1x1024x1088 .bf16) y = (V m c main_v21 : S8x4096x1088.Idx → EReal) i := by
  unfold iblk
  exact blk0_read c t (V m c main_v21) y i h0 h1 h2

theorem iblk1_apply (c : Dev nD) (t : Fin cfg0.N) (y : S1088x64.Idx) :
    (iblk m c 1 t : Vec Ideal S1088x64 .bf16) y = (V m c main_v23 : S1088x64.Idx → EReal) y := by
  unfold iblk
  exact blk1_read c t (V m c main_v23) y

theorem iblk2_apply (c : Dev nD) (t : Fin cfg0.N) (y : S1x64.Idx) :
    (iblk m c 2 t : Vec Ideal S1x64 .f32) y = (V m c main_v24 : S1x64.Idx → EReal) y := by
  unfold iblk
  exact blk2_read c t (V m c main_v24) y

/-! ## The result array -/

/-- The layer function of the arguments as launched: the reference's flattened-feature stage of the index and feature
    arrays, the weights, the bias. -/
abbrev result (c : Dev nD) : FVec Ideal ⟨3, ![8, 4096, 64]⟩ .f32 :=
  Cert.ConvSpec.convOut
    (Cert.ReferenceIdeal.Read.val_main_v10 (F := Ideal) (m ((c : Thread nD τ).loc main_arg0)) (m ((c : Thread nD τ).loc main_arg2)))
    (m ((c : Thread nD τ).loc main_arg3)) (m ((c : Thread nD τ).loc main_arg4))

/-- The stored block's entry `y` at point `t` is the specification at the array index of that entry. -/
theorem block_entry (c : Dev nD) (t : Fin cfg0.N) (y : S1x1024x64.Idx) (i : S8x4096x64.Idx)
    (h0 : (i 0).val = win0_3.index t (0 : Fin 3) * 1 + (y 0).val)
    (h1 : (i 1).val = win0_3.index t (1 : Fin 3) * 1024 + (y 1).val)
    (h2 : (i 2).val = win0_3.index t (2 : Fin 3) * 64 + (y 2).val) :
    k0_pay1 (F := Ideal) (iblk m c 0 t) (iblk m c 1 t) (iblk m c 2 t) y = result m c i := by
  obtain ⟨z, r, o, rfl⟩ : ∃ (z : Fin 1) (r : Fin 1024) (o : Fin 64), y = ix3 z r o := ⟨y 0, y 1, y 2, eq_ix3 y⟩
  obtain rfl : z = 0 := Subsingleton.elim _ _
  have h0' : (i 0).val = win0_3.index t (0 : Fin 3) * 1 + 0 := h0
  have h1' : (i 1).val = win0_3.index t (1 : Fin 3) * 1024 + r.val := h1
  have h2' : (i 2).val = win0_3.index t (2 : Fin 3) * 64 + o.val := h2
  obtain ⟨e0, e1, e2, e3, -, -, -, -, -, -⟩ := idx_facts t
  refine (pay_apply (iblk m c 0 t) (iblk m c 1 t) (iblk m c 2 t) r o).trans ?_
  have ho : (⟨(i 2).val, (i 2).isLt⟩ : Fin 64) = o := Fin.ext (by show (i 2).val = o.val; omega)
  show _ = Cert.ConvSpec.convAt _ _ _ ⟨(i 0).val, (i 0).isLt⟩ ⟨(i 1).val, (i 1).isLt⟩ ⟨(i 2).val, (i 2).isLt⟩
  rw [ho]
  unfold Cert.ConvSpec.convAt
  have hf : ∀ k : Fin 1088, (iblk m c 0 t : Vec Ideal S1x1024x1088 .bf16) (ix3 (0 : Fin 1) r k)
      = Cert.ReferenceIdeal.Read.val_main_v10 (F := Ideal) (m ((c : Thread nD τ).loc main_arg0)) (m ((c : Thread nD τ).loc main_arg2))
          (ix3 (⟨(i 0).val, (i 0).isLt⟩ : Fin 8) (⟨(i 1).val, (i 1).isLt⟩ : Fin 4096) k) := fun k => by
    rw [← Cert.KernelIdeal.HostSide.win0_array m c]
    exact iblk0_apply m c t (ix3 (0 : Fin 1) r k) _
      (by show (i 0).val = win0_0.index t (0 : Fin 3) * 1 + 0; omega)
      (by show (i 1).val = win0_0.index t (1 : Fin 3) * 1024 + r.val; omega)
      (by show k.val = win0_0.index t (2 : Fin 3) * 1088 + k.val; omega)
  have hw : ∀ k : Fin 1088, (iblk m c 1 t : Vec Ideal S1088x64 .bf16) (ix2 k o)
      = (m ((c : Thread nD τ).loc main_arg3) : S64x1088.Idx → EReal) (ix2 o k) := fun k => by
    rw [iblk1_apply, Cert.KernelIdeal.HostSide.win1_array_apply]
  have hbias : (iblk m c 2 t : Vec Ideal S1x64 .f32) (ix2 (0 : Fin 1) o)
      = (m ((c : Thread nD τ).loc main_arg4) : S64.Idx → EReal) (ix1 o) := by
    rw [iblk2_apply, Cert.KernelIdeal.HostSide.win2_array_apply]
  simp only [hf, hw, hbias]

/-- Reading the result window's block at point `t`, entry `j`, off ANY array `X` of the result's shape gives `X` at the
    array index of that entry. -/
theorem blk3_read (c : Dev nD) (t : Fin cfg0.N) (X : Buf (Elt Ideal) ((c : Thread nD τ).loc main_v25))
    (j : ((cfg0.win 3).xblock (grid0.coords t)).Idx) :
    ((cfg0.win 3).blk t).view.read (Elt Ideal) X j = (X : S8x4096x64.Idx → EReal) (((cfg0.win 3).blk t).view.emb j) := by
  rw [View.read_apply]
  rfl

/-- WHAT POINT `t` WRITES BACK is block `t` of the specification. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz3]
  simp only [View.ld_unit_zero (S := S1x1024x1088) hz3, View.ld_unit_zero (S := S1088x64) hz2, View.ld_unit_zero (S := S1x64) hz2]
  funext j
  rw [blk3_read c t (result m c) j]
  exact block_entry m c t ((cfg0.win 3).xinj (grid0.coords t) j) (((cfg0.win 3).blk t).view.emb j)
    (by show win0_3.index t (0 : Fin 3) * 1 + 1 * (j 0).val = win0_3.index t (0 : Fin 3) * 1 + (j 0).val; omega)
    (by show win0_3.index t (1 : Fin 3) * 1024 + 1 * (j 1).val = win0_3.index t (1 : Fin 3) * 1024 + (j 1).val; omega)
    (by show win0_3.index t (2 : Fin 3) * 64 + 1 * (j 2).val = win0_3.index t (2 : Fin 3) * 64 + (j 2).val; omega)

/-- An index of the result array is in point `t`'s block iff each coordinate is in the block's range on its axis. -/
theorem mem_blk (t : Fin cfg0.N) (i : S8x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v25).slice (win0_3.rect t)).set ↔ _
  rw [View.set_slice_whole, Rect.mem_set_unit]
  exact Iff.rfl

/-- The 32 blocks cover the result array: entry (b, v, o) lies in the block of point (b, v / 1024). -/
theorem cover (i : S8x4096x64.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- So the result array ends holding the specification. -/
theorem final (c : Dev nD) : (dats m 0 c).arrAt 3 cfg0.N = result m c :=
  (dats m 0 c).arrAt_eq_of_cover 3 (result m c) (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.RefValue.lean ====
/-
  The reference's result is the layer function of ITS flattened-feature array.

  Read one operation at a time, the reference's last stage at entry (b, v, o) is the maximum with zero of the sum over
  the 1088 flattened features of `flat[b, v, f] · W[o, f]` (its `dot_general` contracts the features' last axis against
  the weights' last axis) plus `bias[o]` (the bias broadcast over batch and vertex): the specification's entry.
-/
import proofs.«403203_j14276471292174_3_alg».proof.Proof.Gen.ReferenceIdeal.Read
import proofs.«403203_j14276471292174_3_alg».proof.Proof.ConvSpec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's result stage is `convOut` of its own flattened features, the weights and the bias. -/
theorem result_eq (x0 : (⟨S8x4096x16, .i32⟩ : BufTy).Contents (Elt Ideal)) (x2 : (⟨S8x4096x64, .f32⟩ : BufTy).Contents (Elt Ideal))
    (x3 : (⟨S64x1088, .f32⟩ : BufTy).Contents (Elt Ideal)) (x4 : (⟨S64, .f32⟩ : BufTy).Contents (Elt Ideal)) :
    val_main_v15 (F := Ideal) x0 x2 x3 x4 = Cert.ConvSpec.convOut (val_main_v10 (F := Ideal) x0 x2) x3 x4 := by
  funext i
  have el : ∀ k : Fin 1088, lidx_main_v11 i k
      = ix3 (⟨(i 0).val, (i 0).isLt⟩ : Fin 8) (⟨(i 1).val, (i 1).isLt⟩ : Fin 4096) k := fun k =>
    funext fun a => by
      match a with
      | ⟨0, _⟩ => rfl
      | ⟨1, _⟩ => rfl
      | ⟨2, _⟩ => rfl
  have er : ∀ k : Fin 1088, ridx_main_v11 i k = ix2 (⟨(i 2).val, (i 2).isLt⟩ : Fin 64) k := fun k =>
    funext fun a => by
      match a with
      | ⟨0, _⟩ => rfl
      | ⟨1, _⟩ => rfl
  have eb : idx_main_v12 (idx_main_v13 i) = ix1 (⟨(i 2).val, (i 2).isLt⟩ : Fin 64) :=
    funext fun a => by
      match a with
      | ⟨0, _⟩ => rfl
  rw [val_main_v15_apply, val_main_v14_apply, val_main_v11_apply, val_main_v13_apply, val_main_v12_apply,
    val_main_call0_v0_apply, val_main_call0_cst_apply]
  simp only [el, er, eb]
  rfl

end Cert.ReferenceIdeal.RefValue

end
-- ==== Proof.lean ====
/-
  A graph-convolution layer: for every batch `b` and vertex `v`, the vertex's own 64 features and the features of its
  16 neighbours (rows of the feature table picked by an integer index array) are laid side by side as 1088 numbers,
  contracted against each of 64 weight rows, the bias added and the negative part cut off:

      out[b, v, o] = max( Σ_{f < 1088} flat[b, v, f] · W[o, f] + bias[o], 0 ),   flat[b, v, 17 c + k] = feats[b, v, k, c],
      feats[b, v, 0, ·] = x[b, v, ·],   feats[b, v, k + 1, ·] = x[b, row(idx[b, v, k]), ·].

  The kernel builds `flat` on the host (rounded to bf16, which is the identity on extended reals) and hands row blocks
  of it to one matrix product per grid point; the reference does everything on the host in f32. The two differ in how
  they gather: the kernel indexes the table by the pair (batch number, row), the reference batches the gather over `b`
  and indexes by the row alone. Both wrap a negative index by the axis extent and both clamp what is still out of range,
  and the kernel's batch component is the batch's own number, so the two gathers pick the same row for EVERY integer
  index (Proof/GatherRows.lean, Proof/HostSide.lean). Past that point both sides compute the same sum of the same
  products in the same order, so no law of the extended reals is needed and the finiteness of the inputs is not used
  (Proof/ConvSpec.lean states the function; Proof/RefValue.lean and Proof/KernelValue.lean show each side ends at it).

  The claims: the three programs run and leave their arguments as they were; the idealization rewrote nothing, so
  `preserves` has no conjunct; and the two idealized programs, from memories agreeing on the arguments, end with the
  same result array.
-/
import proofs.«403203_j14276471292174_3_alg».proof.Defs
import proofs.«403203_j14276471292174_3_alg».proof.Proof.Gen.Kernel
import proofs.«403203_j14276471292174_3_alg».proof.Proof.Gen.Kernel.Skeleton
import proofs.«403203_j14276471292174_3_alg».proof.Proof.Gen.Kernel.Launch
import proofs.«403203_j14276471292174_3_alg».proof.Proof.Gen.Kernel.Points
import proofs.«403203_j14276471292174_3_alg».proof.Proof.Gen.Kernel.Frame
import proofs.«403203_j14276471292174_3_alg».proof.Proof.Gen.KernelIdeal
import proofs.«403203_j14276471292174_3_alg».proof.Proof.Gen.KernelIdeal.Skeleton
import proofs.«403203_j14276471292174_3_alg».proof.Proof.Gen.KernelIdeal.Launch
import proofs.«403203_j14276471292174_3_alg».proof.Proof.Gen.KernelIdeal.Points
import proofs.«403203_j14276471292174_3_alg».proof.Proof.Gen.KernelIdeal.Frame
import proofs.«403203_j14276471292174_3_alg».proof.Proof.Gen.ReferenceIdeal
import proofs.«403203_j14276471292174_3_alg».proof.Proof.Gen.Pre_finite_inputs
import proofs.«403203_j14276471292174_3_alg».proof.Proof.Gen.KernelIdeal.Value
import proofs.«403203_j14276471292174_3_alg».proof.Proof.Gen.ReferenceIdeal.Run
import proofs.«403203_j14276471292174_3_alg».proof.Proof.Gen.ReferenceIdeal.Read
import proofs.«403203_j14276471292174_3_alg».proof.Proof.KernelValue
import proofs.«403203_j14276471292174_3_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer function of the arguments: the kernel's result array block by block, the
    reference's last stage read one operation at a time, over flattened features that are one array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4⟩ := hagree c
  rw [Cert.ReferenceIdeal.Read.val_main_v15_eq, Cert.ReferenceIdeal.RefValue.result_eq, h0, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
